-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x128x128 : Shape := ⟨4, ![4, 8, 128, 128]⟩
abbrev S16x8x5x5 : Shape := ⟨4, ![16, 8, 5, 5]⟩
abbrev S_ : Shape := ⟨0, ![]⟩

class Facts : Prop where
  bcast_S_S4x8x128x128 : S_.BroadcastsInDim S4x8x128x128 (![] : Fin 0 → Fin S4x8x128x128.rank)
  reducesTo_S4x8x128x128_S_d0_1_2_3 : S4x8x128x128.ReducesTo [0, 1, 2, 3] S_
  h_S_ : 0 < S_.numel
  bcast_S_S16x8x5x5 : S_.BroadcastsInDim S16x8x5x5 (![] : Fin 0 → Fin S16x8x5x5.rank)
  reducesTo_S16x8x5x5_S_d0_1_2_3 : S16x8x5x5.ReducesTo [0, 1, 2, 3] S_

variable [Facts]

def fn {F : FTy → Type} [FloatOps F] (main_arg0 : FVec F S4x8x128x128 .f32) (main_arg1 : FVec F S16x8x5x5 .f32) : IVec S_ 1 :=
  let main_v0 : FVec F S4x8x128x128 .f32 := Host.absf main_arg0
  let main_cst : FVec F S_ .f32 := constant S_ .f32 0x7F800000#32
  let main_v1 : FVec F S4x8x128x128 .f32 := broadcastInDim S4x8x128x128 ![] bcast_S_S4x8x128x128 main_cst
  let main_v2 : IVec S4x8x128x128 1 := cmpf .olt main_v0 main_v1
  let main_c : IVec S_ 1 := constantI S_ 1 1#1
  let main_v3 : IVec S_ 1 := (fun x v => Host.reduce IntOp.andi x v reducesTo_S4x8x128x128_S_d0_1_2_3 h_S_) main_v2 main_c
  let main_v4 : FVec F S16x8x5x5 .f32 := Host.absf main_arg1
  let main_cst_0 : FVec F S_ .f32 := constant S_ .f32 0x7F800000#32
  let main_v5 : FVec F S16x8x5x5 .f32 := broadcastInDim S16x8x5x5 ![] bcast_S_S16x8x5x5 main_cst_0
  let main_v6 : IVec S16x8x5x5 1 := cmpf .olt main_v4 main_v5
  let main_c_1 : IVec S_ 1 := constantI S_ 1 1#1
  let main_v7 : IVec S_ 1 := (fun x v => Host.reduce IntOp.andi x v reducesTo_S16x8x5x5_S_d0_1_2_3 h_S_) main_v6 main_c_1
  let main_v8 : IVec S_ 1 := andi main_v3 main_v7
  main_v8
-- ==== Kernel.lean ====
abbrev S4x8x128x128 : Shape := ⟨4, ![4, 8, 128, 128]⟩
abbrev S16x8x5x5 : Shape := ⟨4, ![16, 8, 5, 5]⟩
abbrev S5x5x8x16 : Shape := ⟨4, ![5, 5, 8, 16]⟩
abbrev S200x16 : Shape := ⟨2, ![200, 16]⟩
abbrev S4x16x124x124 : Shape := ⟨4, ![4, 16, 124, 124]⟩
abbrev S1x8x128x128 : Shape := ⟨4, ![1, 8, 128, 128]⟩
abbrev S1x16x124x124 : Shape := ⟨4, ![1, 16, 124, 124]⟩
abbrev S8x128x128 : Shape := ⟨3, ![8, 128, 128]⟩
abbrev S8x124x124 : Shape := ⟨3, ![8, 124, 124]⟩
abbrev S8x16 : Shape := ⟨2, ![8, 16]⟩
abbrev S8x1x124x124 : Shape := ⟨4, ![8, 1, 124, 124]⟩
abbrev S8x16x1x1 : Shape := ⟨4, ![8, 16, 1, 1]⟩
abbrev S8x16x124x124 : Shape := ⟨4, ![8, 16, 124, 124]⟩
abbrev S16x124x124 : Shape := ⟨3, ![16, 124, 124]⟩

abbrev nBuf : Space → Nat
  | .hbm => 6
  | .vmem => 5
  | .smem => 0
  | _ => 0

abbrev bufTy : (tb : Table) → Fin (tcTables nBuf tb) → BufTy
  | .hbm, ⟨0, _⟩ => ⟨S4x8x128x128, .f32⟩
  | .hbm, ⟨1, _⟩ => ⟨S16x8x5x5, .f32⟩
  | .hbm, ⟨2, _⟩ => ⟨S16x8x5x5, .f32⟩
  | .hbm, ⟨3, _⟩ => ⟨S5x5x8x16, .f32⟩
  | .hbm, ⟨4, _⟩ => ⟨S200x16, .f32⟩
  | .hbm, ⟨5, _⟩ => ⟨S4x16x124x124, .f32⟩
  | .local _ .vmem, ⟨0, _⟩ => ⟨S1x8x128x128, .f32⟩
  | .local _ .vmem, ⟨1, _⟩ => ⟨S1x8x128x128, .f32⟩
  | .local _ .vmem, ⟨2, _⟩ => ⟨S200x16, .f32⟩
  | .local _ .vmem, ⟨3, _⟩ => ⟨S1x16x124x124, .f32⟩
  | .local _ .vmem, ⟨4, _⟩ => ⟨S1x16x124x124, .f32⟩
  | _, _ => ⟨S4x8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S200x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x16x124x124 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S16x8x5x5_S5x5x8x16_2_3_1_0 : S16x8x5x5.Transposes [2, 3, 1, 0] S5x5x8x16
  shapeCasts_S5x5x8x16_S200x16 : S5x5x8x16.ShapeCasts S200x16
  inb_S1x8x128x128_S1x8x128x128_0_0_0_0 : ∀ a, (![0, 0, 0, 0] : Fin 4 → Nat) a + S1x8x128x128.size a ≤ S1x8x128x128.size a
  h_S1x8x128x128 : 0 < S1x8x128x128.numel
  shapeCasts_S1x8x128x128_S8x128x128 : S1x8x128x128.ShapeCasts S8x128x128
  inb_S200x16_S200x16_0_0 : ∀ a, (![0, 0] : Fin 2 → Nat) a + S200x16.size a ≤ S200x16.size a
  h_S200x16 : 0 < S200x16.numel
  shapeCasts_S200x16_S200x16 : S200x16.ShapeCasts S200x16
  slices_S8x128x128_o0_0_0_S8x124x124 : S8x128x128.Slices ![0, 0, 0] S8x124x124
  slices_S200x16_o0_0_S8x16 : S200x16.Slices ![0, 0] S8x16
  shapeCasts_S8x124x124_S8x1x124x124 : S8x124x124.ShapeCasts S8x1x124x124
  shapeCasts_S8x16_S8x16x1x1 : S8x16.ShapeCasts S8x16x1x1
  broadcasts_S8x1x124x124_S8x16x124x124 : S8x1x124x124.Broadcasts S8x16x124x124
  broadcasts_S8x16x1x1_S8x16x124x124 : S8x16x1x1.Broadcasts S8x16x124x124
  reduces_S8x16x124x124_S16x124x124 : S8x16x124x124.Reduces [0] S16x124x124
  slices_S8x128x128_o0_0_1_S8x124x124 : S8x128x128.Slices ![0, 0, 1] S8x124x124
  slices_S200x16_o8_0_S8x16 : S200x16.Slices ![8, 0] S8x16
  slices_S8x128x128_o0_0_2_S8x124x124 : S8x128x128.Slices ![0, 0, 2] S8x124x124
  slices_S200x16_o16_0_S8x16 : S200x16.Slices ![16, 0] S8x16
  slices_S8x128x128_o0_0_3_S8x124x124 : S8x128x128.Slices ![0, 0, 3] S8x124x124
  slices_S200x16_o24_0_S8x16 : S200x16.Slices ![24, 0] S8x16
  slices_S8x128x128_o0_0_4_S8x124x124 : S8x128x128.Slices ![0, 0, 4] S8x124x124
  slices_S200x16_o32_0_S8x16 : S200x16.Slices ![32, 0] S8x16
  slices_S8x128x128_o0_1_0_S8x124x124 : S8x128x128.Slices ![0, 1, 0] S8x124x124
  slices_S200x16_o40_0_S8x16 : S200x16.Slices ![40, 0] S8x16
  slices_S8x128x128_o0_1_1_S8x124x124 : S8x128x128.Slices ![0, 1, 1] S8x124x124
  slices_S200x16_o48_0_S8x16 : S200x16.Slices ![48, 0] S8x16
  slices_S8x128x128_o0_1_2_S8x124x124 : S8x128x128.Slices ![0, 1, 2] S8x124x124
  slices_S200x16_o56_0_S8x16 : S200x16.Slices ![56, 0] S8x16
  slices_S8x128x128_o0_1_3_S8x124x124 : S8x128x128.Slices ![0, 1, 3] S8x124x124
  slices_S200x16_o64_0_S8x16 : S200x16.Slices ![64, 0] S8x16
  slices_S8x128x128_o0_1_4_S8x124x124 : S8x128x128.Slices ![0, 1, 4] S8x124x124
  slices_S200x16_o72_0_S8x16 : S200x16.Slices ![72, 0] S8x16
  slices_S8x128x128_o0_2_0_S8x124x124 : S8x128x128.Slices ![0, 2, 0] S8x124x124
  slices_S200x16_o80_0_S8x16 : S200x16.Slices ![80, 0] S8x16
  slices_S8x128x128_o0_2_1_S8x124x124 : S8x128x128.Slices ![0, 2, 1] S8x124x124
  slices_S200x16_o88_0_S8x16 : S200x16.Slices ![88, 0] S8x16
  slices_S8x128x128_o0_2_2_S8x124x124 : S8x128x128.Slices ![0, 2, 2] S8x124x124
  slices_S200x16_o96_0_S8x16 : S200x16.Slices ![96, 0] S8x16
  slices_S8x128x128_o0_2_3_S8x124x124 : S8x128x128.Slices ![0, 2, 3] S8x124x124
  slices_S200x16_o104_0_S8x16 : S200x16.Slices ![104, 0] S8x16
  slices_S8x128x128_o0_2_4_S8x124x124 : S8x128x128.Slices ![0, 2, 4] S8x124x124
  slices_S200x16_o112_0_S8x16 : S200x16.Slices ![112, 0] S8x16
  slices_S8x128x128_o0_3_0_S8x124x124 : S8x128x128.Slices ![0, 3, 0] S8x124x124
  slices_S200x16_o120_0_S8x16 : S200x16.Slices ![120, 0] S8x16
  slices_S8x128x128_o0_3_1_S8x124x124 : S8x128x128.Slices ![0, 3, 1] S8x124x124
  slices_S200x16_o128_0_S8x16 : S200x16.Slices ![128, 0] S8x16
  slices_S8x128x128_o0_3_2_S8x124x124 : S8x128x128.Slices ![0, 3, 2] S8x124x124
  slices_S200x16_o136_0_S8x16 : S200x16.Slices ![136, 0] S8x16
  slices_S8x128x128_o0_3_3_S8x124x124 : S8x128x128.Slices ![0, 3, 3] S8x124x124
  slices_S200x16_o144_0_S8x16 : S200x16.Slices ![144, 0] S8x16
  slices_S8x128x128_o0_3_4_S8x124x124 : S8x128x128.Slices ![0, 3, 4] S8x124x124
  slices_S200x16_o152_0_S8x16 : S200x16.Slices ![152, 0] S8x16
  slices_S8x128x128_o0_4_0_S8x124x124 : S8x128x128.Slices ![0, 4, 0] S8x124x124
  slices_S200x16_o160_0_S8x16 : S200x16.Slices ![160, 0] S8x16
  slices_S8x128x128_o0_4_1_S8x124x124 : S8x128x128.Slices ![0, 4, 1] S8x124x124
  slices_S200x16_o168_0_S8x16 : S200x16.Slices ![168, 0] S8x16
  slices_S8x128x128_o0_4_2_S8x124x124 : S8x128x128.Slices ![0, 4, 2] S8x124x124
  slices_S200x16_o176_0_S8x16 : S200x16.Slices ![176, 0] S8x16
  slices_S8x128x128_o0_4_3_S8x124x124 : S8x128x128.Slices ![0, 4, 3] S8x124x124
  slices_S200x16_o184_0_S8x16 : S200x16.Slices ![184, 0] S8x16
  slices_S8x128x128_o0_4_4_S8x124x124 : S8x128x128.Slices ![0, 4, 4] S8x124x124
  slices_S200x16_o192_0_S8x16 : S200x16.Slices ![192, 0] S8x16
  inb_S1x16x124x124_S1x16x124x124_0_0_0_0 : ∀ a, (![0, 0, 0, 0] : Fin 4 → Nat) a + S1x16x124x124.size a ≤ S1x16x124x124.size a
  h_S1x16x124x124 : 0 < S1x16x124x124.numel
  shapeCasts_S1x16x124x124_S16x124x124 : S1x16x124x124.ShapeCasts S16x124x124
  shapeCasts_S16x124x124_S1x16x124x124 : S16x124x124.ShapeCasts S1x16x124x124
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x128x128.size a ≤ S4x8x128x128.size a
  hwx0_0 : ∀ i : grid0.Coords, EltTy.bits .f32 = 32 ∨ (Rect.block (s := S4x8x128x128) S1x8x128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S200x16.size a ≤ S200x16.size a
  hwx0_1 : ∀ i : grid0.Coords, EltTy.bits .f32 = 32 ∨ (Rect.block (s := S200x16) S200x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x124x124.size a ≤ S4x16x124x124.size a
  hwx0_2 : ∀ i : grid0.Coords, EltTy.bits .f32 = 32 ∨ (Rect.block (s := S4x16x124x124) S1x16x124x124.size (cc0_transform_2 i) (hinb0_2 i)).WholeWords (EltTy.packing .f32)

variable [Facts₀]

abbrev win0_0 : Pipeline.Window sig grid0 :=
  Pipeline.Window.ofSpec (Memref.whole main_arg0) S1x8x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S200x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x16x124x124.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8x128x128 : Shape := ⟨4, ![4, 8, 128, 128]⟩
abbrev S16x8x5x5 : Shape := ⟨4, ![16, 8, 5, 5]⟩
abbrev S4x8x124x124 : Shape := ⟨4, ![4, 8, 124, 124]⟩
abbrev S4x8x1x124x124 : Shape := ⟨5, ![4, 8, 1, 124, 124]⟩
abbrev S4x8x16x124x124 : Shape := ⟨5, ![4, 8, 16, 124, 124]⟩
abbrev S4x8x9x124x124 : Shape := ⟨5, ![4, 8, 9, 124, 124]⟩
abbrev S4x8x25x124x124 : Shape := ⟨5, ![4, 8, 25, 124, 124]⟩
abbrev S4x200x15376 : Shape := ⟨3, ![4, 200, 15376]⟩
abbrev S16x200 : Shape := ⟨2, ![16, 200]⟩
abbrev S1x16x200x1 : Shape := ⟨4, ![1, 16, 200, 1]⟩
abbrev S4x1x200x15376 : Shape := ⟨4, ![4, 1, 200, 15376]⟩
abbrev S4x16x200x15376 : Shape := ⟨4, ![4, 16, 200, 15376]⟩
abbrev S_ : Shape := ⟨0, ![]⟩
abbrev S4x16x15376 : Shape := ⟨3, ![4, 16, 15376]⟩
abbrev S4x16x124x124 : Shape := ⟨4, ![4, 16, 124, 124]⟩

abbrev nBuf : Space → Nat
  | .hbm => 66
  | .vmem => 0
  | .smem => 0
  | _ => 0

abbrev bufTy : (tb : Table) → Fin (tcTables nBuf tb) → BufTy
  | .hbm, ⟨0, _⟩ => ⟨S4x8x128x128, .f32⟩
  | .hbm, ⟨1, _⟩ => ⟨S16x8x5x5, .f32⟩
  | .hbm, ⟨2, _⟩ => ⟨S16x8x5x5, .f32⟩
  | .hbm, ⟨3, _⟩ => ⟨S4x8x124x124, .f32⟩
  | .hbm, ⟨4, _⟩ => ⟨S4x8x124x124, .f32⟩
  | .hbm, ⟨5, _⟩ => ⟨S4x8x124x124, .f32⟩
  | .hbm, ⟨6, _⟩ => ⟨S4x8x124x124, .f32⟩
  | .hbm, ⟨7, _⟩ => ⟨S4x8x124x124, .f32⟩
  | .hbm, ⟨8, _⟩ => ⟨S4x8x124x124, .f32⟩
  | .hbm, ⟨9, _⟩ => ⟨S4x8x124x124, .f32⟩
  | .hbm, ⟨10, _⟩ => ⟨S4x8x124x124, .f32⟩
  | .hbm, ⟨11, _⟩ => ⟨S4x8x124x124, .f32⟩
  | .hbm, ⟨12, _⟩ => ⟨S4x8x124x124, .f32⟩
  | .hbm, ⟨13, _⟩ => ⟨S4x8x124x124, .f32⟩
  | .hbm, ⟨14, _⟩ => ⟨S4x8x124x124, .f32⟩
  | .hbm, ⟨15, _⟩ => ⟨S4x8x124x124, .f32⟩
  | .hbm, ⟨16, _⟩ => ⟨S4x8x124x124, .f32⟩
  | .hbm, ⟨17, _⟩ => ⟨S4x8x124x124, .f32⟩
  | .hbm, ⟨18, _⟩ => ⟨S4x8x124x124, .f32⟩
  | .hbm, ⟨19, _⟩ => ⟨S4x8x124x124, .f32⟩
  | .hbm, ⟨20, _⟩ => ⟨S4x8x124x124, .f32⟩
  | .hbm, ⟨21, _⟩ => ⟨S4x8x124x124, .f32⟩
  | .hbm, ⟨22, _⟩ => ⟨S4x8x124x124, .f32⟩
  | .hbm, ⟨23, _⟩ => ⟨S4x8x124x124, .f32⟩
  | .hbm, ⟨24, _⟩ => ⟨S4x8x124x124, .f32⟩
  | .hbm, ⟨25, _⟩ => ⟨S4x8x124x124, .f32⟩
  | .hbm, ⟨26, _⟩ => ⟨S4x8x124x124, .f32⟩
  | .hbm, ⟨27, _⟩ => ⟨S4x8x124x124, .f32⟩
  | .hbm, ⟨28, _⟩ => ⟨S4x8x1x124x124, .f32⟩
  | .hbm, ⟨29, _⟩ => ⟨S4x8x1x124x124, .f32⟩
  | .hbm, ⟨30, _⟩ => ⟨S4x8x1x124x124, .f32⟩
  | .hbm, ⟨31, _⟩ => ⟨S4x8x1x124x124, .f32⟩
  | .hbm, ⟨32, _⟩ => ⟨S4x8x1x124x124, .f32⟩
  | .hbm, ⟨33, _⟩ => ⟨S4x8x1x124x124, .f32⟩
  | .hbm, ⟨34, _⟩ => ⟨S4x8x1x124x124, .f32⟩
  | .hbm, ⟨35, _⟩ => ⟨S4x8x1x124x124, .f32⟩
  | .hbm, ⟨36, _⟩ => ⟨S4x8x1x124x124, .f32⟩
  | .hbm, ⟨37, _⟩ => ⟨S4x8x1x124x124, .f32⟩
  | .hbm, ⟨38, _⟩ => ⟨S4x8x1x124x124, .f32⟩
  | .hbm, ⟨39, _⟩ => ⟨S4x8x1x124x124, .f32⟩
  | .hbm, ⟨40, _⟩ => ⟨S4x8x1x124x124, .f32⟩
  | .hbm, ⟨41, _⟩ => ⟨S4x8x1x124x124, .f32⟩
  | .hbm, ⟨42, _⟩ => ⟨S4x8x1x124x124, .f32⟩
  | .hbm, ⟨43, _⟩ => ⟨S4x8x1x124x124, .f32⟩
  | .hbm, ⟨44, _⟩ => ⟨S4x8x1x124x124, .f32⟩
  | .hbm, ⟨45, _⟩ => ⟨S4x8x1x124x124, .f32⟩
  | .hbm, ⟨46, _⟩ => ⟨S4x8x1x124x124, .f32⟩
  | .hbm, ⟨47, _⟩ => ⟨S4x8x1x124x124, .f32⟩
  | .hbm, ⟨48, _⟩ => ⟨S4x8x1x124x124, .f32⟩
  | .hbm, ⟨49, _⟩ => ⟨S4x8x1x124x124, .f32⟩
  | .hbm, ⟨50, _⟩ => ⟨S4x8x1x124x124, .f32⟩
  | .hbm, ⟨51, _⟩ => ⟨S4x8x1x124x124, .f32⟩
  | .hbm, ⟨52, _⟩ => ⟨S4x8x1x124x124, .f32⟩
  | .hbm, ⟨53, _⟩ => ⟨S4x8x16x124x124, .f32⟩
  | .hbm, ⟨54, _⟩ => ⟨S4x8x9x124x124, .f32⟩
  | .hbm, ⟨55, _⟩ => ⟨S4x8x25x124x124, .f32⟩
  | .hbm, ⟨56, _⟩ => ⟨S4x200x15376, .f32⟩
  | .hbm, ⟨57, _⟩ => ⟨S16x200, .f32⟩
  | .hbm, ⟨58, _⟩ => ⟨S1x16x200x1, .f32⟩
  | .hbm, ⟨59, _⟩ => ⟨S4x1x200x15376, .f32⟩
  | .hbm, ⟨60, _⟩ => ⟨S4x16x200x15376, .f32⟩
  | .hbm, ⟨61, _⟩ => ⟨S4x16x200x15376, .f32⟩
  | .hbm, ⟨62, _⟩ => ⟨S4x16x200x15376, .f32⟩
  | .hbm, ⟨63, _⟩ => ⟨S_, .f32⟩
  | .hbm, ⟨64, _⟩ => ⟨S4x16x15376, .f32⟩
  | .hbm, ⟨65, _⟩ => ⟨S4x16x124x124, .f32⟩
  | _, _ => ⟨S4x8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_cst : Ref sig .tc := ⟨.hbm, 63, rfl⟩
abbrev main_v61 : Ref sig .tc := ⟨.hbm, 64, rfl⟩
abbrev main_v62 : Ref sig .tc := ⟨.hbm, 65, rfl⟩

abbrev nD : Nat := 1
abbrev τ : Topo := Topo.v7x

variable {F : FTy → Type} [FloatOps F]

class Facts₀ : Prop where
  slices_S4x8x128x128_S4x8x124x124_0_0_0_0 : S4x8x128x128.Slices ![0, 0, 0, 0] S4x8x124x124
  slices_S4x8x128x128_S4x8x124x124_0_0_0_1 : S4x8x128x128.Slices ![0, 0, 0, 1] S4x8x124x124
  slices_S4x8x128x128_S4x8x124x124_0_0_0_2 : S4x8x128x128.Slices ![0, 0, 0, 2] S4x8x124x124
  slices_S4x8x128x128_S4x8x124x124_0_0_0_3 : S4x8x128x128.Slices ![0, 0, 0, 3] S4x8x124x124
  slices_S4x8x128x128_S4x8x124x124_0_0_0_4 : S4x8x128x128.Slices ![0, 0, 0, 4] S4x8x124x124
  slices_S4x8x128x128_S4x8x124x124_0_0_1_0 : S4x8x128x128.Slices ![0, 0, 1, 0] S4x8x124x124
  slices_S4x8x128x128_S4x8x124x124_0_0_1_1 : S4x8x128x128.Slices ![0, 0, 1, 1] S4x8x124x124
  slices_S4x8x128x128_S4x8x124x124_0_0_1_2 : S4x8x128x128.Slices ![0, 0, 1, 2] S4x8x124x124
  slices_S4x8x128x128_S4x8x124x124_0_0_1_3 : S4x8x128x128.Slices ![0, 0, 1, 3] S4x8x124x124
  slices_S4x8x128x128_S4x8x124x124_0_0_1_4 : S4x8x128x128.Slices ![0, 0, 1, 4] S4x8x124x124
  slices_S4x8x128x128_S4x8x124x124_0_0_2_0 : S4x8x128x128.Slices ![0, 0, 2, 0] S4x8x124x124
  slices_S4x8x128x128_S4x8x124x124_0_0_2_1 : S4x8x128x128.Slices ![0, 0, 2, 1] S4x8x124x124
  slices_S4x8x128x128_S4x8x124x124_0_0_2_2 : S4x8x128x128.Slices ![0, 0, 2, 2] S4x8x124x124
  slices_S4x8x128x128_S4x8x124x124_0_0_2_3 : S4x8x128x128.Slices ![0, 0, 2, 3] S4x8x124x124
  slices_S4x8x128x128_S4x8x124x124_0_0_2_4 : S4x8x128x128.Slices ![0, 0, 2, 4] S4x8x124x124
  slices_S4x8x128x128_S4x8x124x124_0_0_3_0 : S4x8x128x128.Slices ![0, 0, 3, 0] S4x8x124x124
  slices_S4x8x128x128_S4x8x124x124_0_0_3_1 : S4x8x128x128.Slices ![0, 0, 3, 1] S4x8x124x124
  slices_S4x8x128x128_S4x8x124x124_0_0_3_2 : S4x8x128x128.Slices ![0, 0, 3, 2] S4x8x124x124
  slices_S4x8x128x128_S4x8x124x124_0_0_3_3 : S4x8x128x128.Slices ![0, 0, 3, 3] S4x8x124x124
  slices_S4x8x128x128_S4x8x124x124_0_0_3_4 : S4x8x128x128.Slices ![0, 0, 3, 4] S4x8x124x124
  slices_S4x8x128x128_S4x8x124x124_0_0_4_0 : S4x8x128x128.Slices ![0, 0, 4, 0] S4x8x124x124
  slices_S4x8x128x128_S4x8x124x124_0_0_4_1 : S4x8x128x128.Slices ![0, 0, 4, 1] S4x8x124x124
  slices_S4x8x128x128_S4x8x124x124_0_0_4_2 : S4x8x128x128.Slices ![0, 0, 4, 2] S4x8x124x124
  slices_S4x8x128x128_S4x8x124x124_0_0_4_3 : S4x8x128x128.Slices ![0, 0, 4, 3] S4x8x124x124
  slices_S4x8x128x128_S4x8x124x124_0_0_4_4 : S4x8x128x128.Slices ![0, 0, 4, 4] S4x8x124x124
  bcast_S4x8x124x124_S4x8x1x124x124_0_1_3_4 : S4x8x124x124.BroadcastsInDim S4x8x1x124x124 (![0, 1, 3, 4] : Fin 4 → Fin S4x8x1x124x124.rank)
  concatenates_S4x8x1x124x124_S4x8x1x124x124_S4x8x1x124x124_S4x8x1x124x124_S4x8x1x124x124_S4x8x1x124x124_S4x8x1x124x124_S4x8x1x124x124_S4x8x1x124x124_S4x8x1x124x124_S4x8x1x124x124_S4x8x1x124x124_S4x8x1x124x124_S4x8x1x124x124_S4x8x1x124x124_S4x8x1x124x124_S4x8x16x124x124_d2 : Shape.Concatenates [S4x8x1x124x124, S4x8x1x124x124, S4x8x1x124x124, S4x8x1x124x124, S4x8x1x124x124, S4x8x1x124x124, S4x8x1x124x124, S4x8x1x124x124, S4x8x1x124x124, S4x8x1x124x124, S4x8x1x124x124, S4x8x1x124x124, S4x8x1x124x124, S4x8x1x124x124, S4x8x1x124x124, S4x8x1x124x124] S4x8x16x124x124 2
  concatenates_S4x8x1x124x124_S4x8x1x124x124_S4x8x1x124x124_S4x8x1x124x124_S4x8x1x124x124_S4x8x1x124x124_S4x8x1x124x124_S4x8x1x124x124_S4x8x1x124x124_S4x8x9x124x124_d2 : Shape.Concatenates [S4x8x1x124x124, S4x8x1x124x124, S4x8x1x124x124, S4x8x1x124x124, S4x8x1x124x124, S4x8x1x124x124, S4x8x1x124x124, S4x8x1x124x124, S4x8x1x124x124] S4x8x9x124x124 2
  concatenates_S4x8x16x124x124_S4x8x9x124x124_S4x8x25x124x124_d2 : Shape.Concatenates [S4x8x16x124x124, S4x8x9x124x124] S4x8x25x124x124 2
  shapeCasts_S4x8x25x124x124_S4x200x15376 : S4x8x25x124x124.ShapeCasts S4x200x15376
  shapeCasts_S16x8x5x5_S16x200 : S16x8x5x5.ShapeCasts S16x200
  bcast_S16x200_S1x16x200x1_1_2 : S16x200.BroadcastsInDim S1x16x200x1 (![1, 2] : Fin 2 → Fin S1x16x200x1.rank)
  bcast_S4x200x15376_S4x1x200x15376_0_2_3 : S4x200x15376.BroadcastsInDim S4x1x200x15376 (![0, 2, 3] : Fin 3 → Fin S4x1x200x15376.rank)
  bcast_S1x16x200x1_S4x16x200x15376_0_1_2_3 : S1x16x200x1.BroadcastsInDim S4x16x200x15376 (![0, 1, 2, 3] : Fin 4 → Fin S4x16x200x15376.rank)
  bcast_S4x1x200x15376_S4x16x200x15376_0_1_2_3 : S4x1x200x15376.BroadcastsInDim S4x16x200x15376 (![0, 1, 2, 3] : Fin 4 → Fin S4x16x200x15376.rank)
  reducesTo_S4x16x200x15376_S4x16x15376_d2 : S4x16x200x15376.ReducesTo [2] S4x16x15376
  h_S_ : 0 < S_.numel
  shapeCasts_S4x16x15376_S4x16x124x124 : S4x16x15376.ShapeCasts S4x16x124x124

variable [Facts₀]

class Facts : Prop extends Facts₀ where

variable [Facts]
-- ==== Proof.KernelWindow.lean ====
/-
  One window offset of the kernel body, as a function of the offset.

  For each of the 25 window offsets the body takes the [8, 124, 124] slice of the image block that starts at row
  `oi`, column `oj`, and the 8 rows of the [200, 16] weight matrix that start at row `ow`; it broadcasts the first
  over the 16 output channels and the second over the 124 × 124 positions, adds them, and takes the maximum over the
  8 input channels, starting from -∞. Here that computation is one definition with `oi`, `oj`, `ow` as
  parameters, and its value at an output position (o, y, x) over the extended reals is read off once:

      max over c < 8 of  image[c, y + oi, x + oj] + weights[ow + c, o].

  The proof follows each layout operation to the one element of its operand it reads: a broadcast reads coordinate 0
  on a unit axis, a shape cast keeps the row-major position, a slice shifts by its offsets.
-/
import proofs.«132073_j61211873902638_1_alg».proof.Proof.Gen.KernelIdeal
import Idealize.ShloMosaic.Lib.Pipeline.Value
import Idealize.ShloMosaic.PureOps.Ideal.Laws
import Idealize.ShloMosaic.Lib.ValueIdx

noncomputable section

namespace Cert.KernelIdeal.Window

open Cert.KernelIdeal Idealize.ShloMosaic Idealize.ShloMosaic.ValueIdx
open Cert.KernelIdeal.Facts₀

variable {F : FTy → Type} [FloatOps F]

/-- A 124 × 124 window that starts at most 4 rows and 4 columns in fits the 128 × 128 image. -/
theorem slices_img (oi oj : ℕ) (hi : oi ≤ 4) (hj : oj ≤ 4) : S8x128x128.Slices ![0, oi, oj] S8x124x124 :=
  ⟨rfl, fun a => match a with
    | ⟨0, _⟩ => by show 0 + 8 ≤ 8; omega
    | ⟨1, _⟩ => by show oi + 124 ≤ 128; omega
    | ⟨2, _⟩ => by show oj + 124 ≤ 128; omega⟩

/-- Eight consecutive rows of the weight matrix that end by row 200 fit it. -/
theorem slices_w (ow : ℕ) (hw : ow + 8 ≤ 200) : S200x16.Slices ![ow, 0] S8x16 :=
  ⟨rfl, fun a => match a with
    | ⟨0, _⟩ => by show ow + 8 ≤ 200; omega
    | ⟨1, _⟩ => by show 0 + 16 ≤ 16; omega⟩

/-- One window offset's contribution to the output block. -/
def winMax (v1 : FVec F S8x128x128 .f32) (v3 : FVec F S200x16 .f32) (oi oj ow : ℕ)
    (h1 : S8x128x128.Slices ![0, oi, oj] S8x124x124) (h2 : S200x16.Slices ![ow, 0] S8x16) : FVec F S16x124x124 .f32 :=
  multiReduction .maximumf [0] S16x124x124
    (addf
      (broadcastTo S8x16x124x124
        (shapeCast S8x1x124x124 (extractStridedSlice S8x124x124 ![0, oi, oj] v1 h1) shapeCasts_S8x124x124_S8x1x124x124)
        broadcasts_S8x1x124x124_S8x16x124x124)
      (broadcastTo S8x16x124x124
        (shapeCast S8x16x1x1 (extractStridedSlice S8x16 ![ow, 0] v3 h2) shapeCasts_S8x16_S8x16x1x1)
        broadcasts_S8x16x1x1_S8x16x124x124))
    0xFF800000#32 reduces_S8x16x124x124_S16x124x124 (.inl rfl) rfl

/-- The bit pattern the reduction starts from is -∞. -/
theorem ofBits_neg_inf : FloatOps.ofBits (F := Ideal) .f32 0xFF800000#32 = (⊥ : EReal) := by
  show Ideal.ofBits .f32 0xFF800000#32 = ⊥
  simp [Ideal.ofBits, Ideal.ieee]

/-- The image part of a window term at (c, o, y, x): the broadcast over the output channel drops `o`, the shape
    cast drops the unit axis, the slice shifts the position by the window offset. -/
theorem imgPart_apply (v1 : FVec Ideal S8x128x128 .f32) (oi oj : ℕ) (h1 : S8x128x128.Slices ![0, oi, oj] S8x124x124)
    (hi : oi ≤ 4) (hj : oj ≤ 4) (c : Fin 8) (o : Fin 16) (y x : Fin 124) :
    broadcastTo S8x16x124x124
        (shapeCast S8x1x124x124 (extractStridedSlice S8x124x124 ![0, oi, oj] v1 h1) shapeCasts_S8x124x124_S8x1x124x124)
        broadcasts_S8x1x124x124_S8x16x124x124 (ix4 c o y x)
      = v1 (ix3 c ⟨y.val + oi, by have := y.isLt; omega⟩ ⟨x.val + oj, by have := x.isLt; omega⟩) := by
  refine (broadcastTo_apply _ _ _ (ix4 c (0 : Fin 1) y x) (fun a => match a with
    | ⟨0, _⟩ => rfl
    | ⟨1, _⟩ => rfl
    | ⟨2, _⟩ => rfl
    | ⟨3, _⟩ => rfl)).trans ?_
  refine (shapeCast_apply _ _ _ (ix3 c y x) (by
    rw [Shape.rowMajor_val_three, Shape.rowMajor_val_four]
    show (c.val * 124 + y.val) * 124 + x.val = ((c.val * 1 + 0) * 124 + y.val) * 124 + x.val
    omega)).trans ?_
  exact extractStridedSlice_apply _ _ _ _ _ (fun a => match a with
    | ⟨0, _⟩ => by show c.val = 0 + c.val; omega
    | ⟨1, _⟩ => by show y.val + oi = oi + y.val; omega
    | ⟨2, _⟩ => by show x.val + oj = oj + x.val; omega)

/-- The weight part of a window term at (c, o, y, x): the broadcast over the positions drops `y` and `x`, the shape
    cast drops the two unit axes, the slice shifts the row by `ow`. -/
theorem wPart_apply (v3 : FVec Ideal S200x16 .f32) (ow : ℕ) (h2 : S200x16.Slices ![ow, 0] S8x16) (hw : ow + 8 ≤ 200)
    (c : Fin 8) (o : Fin 16) (y x : Fin 124) :
    broadcastTo S8x16x124x124
        (shapeCast S8x16x1x1 (extractStridedSlice S8x16 ![ow, 0] v3 h2) shapeCasts_S8x16_S8x16x1x1)
        broadcasts_S8x16x1x1_S8x16x124x124 (ix4 c o y x)
      = v3 (ix2 ⟨ow + c.val, by have := c.isLt; omega⟩ o) := by
  refine (broadcastTo_apply _ _ _ (ix4 c o (0 : Fin 1) (0 : Fin 1)) (fun a => match a with
    | ⟨0, _⟩ => rfl
    | ⟨1, _⟩ => rfl
    | ⟨2, _⟩ => rfl
    | ⟨3, _⟩ => rfl)).trans ?_
  refine (shapeCast_apply _ _ _ (ix2 c o) (by
    rw [Shape.rowMajor_val_two, Shape.rowMajor_val_four]
    show c.val * 16 + o.val = ((c.val * 16 + o.val) * 1 + 0) * 1 + 0
    omega)).trans ?_
  exact extractStridedSlice_apply _ _ _ _ _ (fun a => match a with
    | ⟨0, _⟩ => by show ow + c.val = ow + c.val; rfl
    | ⟨1, _⟩ => by show o.val = 0 + o.val; omega)

/-- The index the reduction reads for input channel `c` at result position (o, y, x) is (c, o, y, x). -/
theorem lift_eq (o : Fin 16) (y x : Fin 124) (c : Fin 8) :
    reduces_S8x16x124x124_S16x124x124.lift (ix3 o y x) c = ix4 c o y x :=
  funext fun a => match a with
    | ⟨0, _⟩ => Fin.ext rfl
    | ⟨1, _⟩ => Fin.ext rfl
    | ⟨2, _⟩ => Fin.ext rfl
    | ⟨3, _⟩ => Fin.ext rfl

/-- The contribution at output position (o, y, x), over the extended reals. -/
theorem winMax_apply (v1 : FVec Ideal S8x128x128 .f32) (v3 : FVec Ideal S200x16 .f32) (oi oj ow : ℕ)
    (h1 : S8x128x128.Slices ![0, oi, oj] S8x124x124) (h2 : S200x16.Slices ![ow, 0] S8x16)
    (hi : oi ≤ 4) (hj : oj ≤ 4) (hw : ow + 8 ≤ 200) (o : Fin 16) (y x : Fin 124) :
    winMax v1 v3 oi oj ow h1 h2 (ix3 o y x)
      = (Finset.univ : Finset (Fin 8)).fold max (⊥ : EReal) fun c =>
          v1 (ix3 c ⟨y.val + oi, by have := y.isLt; omega⟩ ⟨x.val + oj, by have := x.isLt; omega⟩)
            + v3 (ix2 ⟨ow + c.val, by have := c.isLt; omega⟩ o) := by
  unfold winMax
  refine (Ideal.multiReduction_maximumf_single _ _ _ _ _ _).trans ?_
  rw [ofBits_neg_inf]
  refine congrArg (fun f : Fin 8 → EReal => (Finset.univ : Finset (Fin 8)).fold max (⊥ : EReal) f)
    (funext fun (c : Fin 8) => ?_)
  show (addf _ _ : FVec Ideal S8x16x124x124 .f32) (reduces_S8x16x124x124_S16x124x124.lift (ix3 o y x) c) = _
  rw [lift_eq]
  exact congrArg₂ (fun a b : EReal => a + b) (imgPart_apply v1 oi oj h1 hi hj c o y x) (wPart_apply v3 ow h2 hw c o y x)

end Cert.KernelIdeal.Window

end
-- ==== Proof.Spec.lean ====
/-
  The value both programs compute, as ONE function of the two argument arrays, index by index.

  A max-plus ("tropical") valid convolution of a 4 × 8 × 128 × 128 image with a 16 × 8 × 5 × 5 kernel, the kernel
  flipped in both spatial axes:

    out[b, o, y, x] = max over c < 8, i < 5, j < 5 of  img[b, c, y + i, x + j] + ker[o, c, 4 - i, 4 - j]

  on the extended reals, the maximum of the empty family being -∞. The 25 window offsets (i, j) are enumerated
  row-major by one number k = 5 i + j, so i = k / 5 and j = k % 5: this is how both programs lay them out.

  Beside the function this module has the two order facts the rest of the proof needs and nothing about either
  program: a left-nested chain of binary maxima is below a bound exactly when each of its entries is, and two
  maxima over finite families are equal as soon as each family is dominated, entry by entry, by the other. Only
  commutativity, associativity and idempotence of max are behind them; no finiteness of the entries is used.
-/
import Idealize.ShloMosaic.PureOps.Ideal
import Idealize.ShloMosaic.Lib.ValueIdx

noncomputable section

namespace Cert.Tropical

open Idealize.ShloMosaic Idealize.ShloMosaic.ValueIdx

/-! ## Maxima of finite families of extended reals -/

/-- The left-nested maximum `max (… (max (t 0) (t 1)) …) (t n)` of the entries `t 0, …, t n`. -/
def chainMax (t : ℕ → EReal) : ℕ → EReal
  | 0 => t 0
  | n + 1 => max (chainMax t n) (t (n + 1))

/-- The chain is below a bound exactly when every entry is. -/
theorem chainMax_le_iff (t : ℕ → EReal) (n : ℕ) (c : EReal) : chainMax t n ≤ c ↔ ∀ k, k ≤ n → t k ≤ c := by
  induction n with
  | zero =>
    constructor
    · intro h k hk
      rw [Nat.le_zero.mp hk]; exact h
    · intro h; exact h 0 le_rfl
  | succ n ih =>
    show max (chainMax t n) (t (n + 1)) ≤ c ↔ _
    rw [max_le_iff, ih]
    constructor
    · rintro ⟨h1, h2⟩ k hk
      rcases Nat.lt_or_eq_of_le hk with h | h
      · exact h1 k (Nat.lt_succ_iff.mp h)
      · rw [h]; exact h2
    · intro h
      exact ⟨fun k hk => h k (Nat.le_succ_of_le hk), h _ le_rfl⟩

/-- Every entry is below the chain. -/
theorem le_chainMax (t : ℕ → EReal) (n k : ℕ) (hk : k ≤ n) : t k ≤ chainMax t n :=
  (chainMax_le_iff t n _).mp le_rfl k hk

/-- The maximum of a finite family is below a bound when every entry is (the empty maximum is -∞). -/
theorem foldMax_le {ι : Type} (s : Finset ι) (f : ι → EReal) (c : EReal) (h : ∀ i ∈ s, f i ≤ c) :
    s.fold max ⊥ f ≤ c :=
  (Finset.fold_max_le (c := c)).mpr ⟨bot_le, h⟩

/-- Every entry is below the maximum of its family. -/
theorem le_foldMax {ι : Type} (s : Finset ι) (f : ι → EReal) (i : ι) (hi : i ∈ s) : f i ≤ s.fold max ⊥ f :=
  (Finset.le_fold_max (c := f i)).mpr (Or.inr ⟨i, hi, le_rfl⟩)

/-- Two maxima agree when each family is dominated entry by entry by the other: the order of the entries, their
    grouping and repetitions do not matter. -/
theorem foldMax_eq_of_dominated {ι κ : Type} (s : Finset ι) (s' : Finset κ) (f : ι → EReal) (g : κ → EReal)
    (h1 : ∀ i ∈ s, ∃ j ∈ s', f i ≤ g j) (h2 : ∀ j ∈ s', ∃ i ∈ s, g j ≤ f i) :
    s.fold max ⊥ f = s'.fold max ⊥ g := by
  apply le_antisymm
  · refine foldMax_le s f _ fun i hi => ?_
    obtain ⟨j, hj, hij⟩ := h1 i hi
    exact hij.trans (le_foldMax s' g j hj)
  · refine foldMax_le s' g _ fun j hj => ?_
    obtain ⟨i, hi, hji⟩ := h2 j hj
    exact hji.trans (le_foldMax s f i hi)

/-! ## The convolution -/

/-- The image's shape, (batch, input channel, row, column). -/
abbrev Simg : Shape := ⟨4, ![4, 8, 128, 128]⟩
/-- The kernel's shape, (output channel, input channel, row, column). -/
abbrev Sker : Shape := ⟨4, ![16, 8, 5, 5]⟩
/-- The result's shape, (batch, output channel, row, column). -/
abbrev Sout : Shape := ⟨4, ![4, 16, 124, 124]⟩

/-- One entry of the maximum: input channel `c` and window offset `k` (row `k / 5`, column `k % 5`) at output
    position `(b, o, y, x)` — the image read at the shifted position plus the kernel read at the mirrored offset. -/
def term (img : Simg.Idx → EReal) (ker : Sker.Idx → EReal) (b : Fin 4) (o : Fin 16) (y x : Fin 124) (c : Fin 8)
    (k : Fin 25) : EReal :=
  img (ix4 b c ⟨y.val + k.val / 5, by have := y.isLt; have := k.isLt; omega⟩
      ⟨x.val + k.val % 5, by have := x.isLt; have := k.isLt; omega⟩)
    + ker (ix4 o c ⟨4 - k.val / 5, by omega⟩ ⟨4 - k.val % 5, by omega⟩)

/-- The result at output position `(b, o, y, x)`: the maximum of the 200 entries. -/
def value (img : Simg.Idx → EReal) (ker : Sker.Idx → EReal) (b : Fin 4) (o : Fin 16) (y x : Fin 124) : EReal :=
  (Finset.univ : Finset (Fin 8 × Fin 25)).fold max ⊥ fun p => term img ker b o y x p.1 p.2

/-- The whole result array. -/
def conv (img : Simg.Idx → EReal) (ker : Sker.Idx → EReal) : Sout.Idx → EReal :=
  fun j => value img ker (j 0) (j 1) (j 2) (j 3)

theorem conv_apply (img : Simg.Idx → EReal) (ker : Sker.Idx → EReal) (b : Fin 4) (o : Fin 16) (y x : Fin 124) :
    conv img ker (ix4 b o y x) = value img ker b o y x := rfl

/-- The maximum grouped by window offset — a chain over `k` of the maxima over the input channels — is the
    maximum of all the entries. `t` is the per-offset maximum, given for every natural number and only
    constrained below 25. -/
theorem chain_eq_value (img : Simg.Idx → EReal) (ker : Sker.Idx → EReal) (b : Fin 4) (o : Fin 16) (y x : Fin 124)
    (t : ℕ → EReal)
    (ht : ∀ k : Fin 25, t k.val = (Finset.univ : Finset (Fin 8)).fold max ⊥ fun c => term img ker b o y x c k) :
    chainMax t 24 = value img ker b o y x := by
  apply le_antisymm
  · refine (chainMax_le_iff t 24 _).mpr fun k hk => ?_
    have e := ht ⟨k, by omega⟩
    rw [show t k = _ from e]
    refine foldMax_le _ _ _ fun c _ => ?_
    exact le_foldMax (Finset.univ : Finset (Fin 8 × Fin 25)) (fun p => term img ker b o y x p.1 p.2)
      (c, ⟨k, by omega⟩) (Finset.mem_univ _)
  · refine foldMax_le _ _ _ fun p _ => ?_
    refine le_trans ?_ (le_chainMax t 24 p.2.val (by have := p.2.isLt; omega))
    rw [ht p.2]
    exact le_foldMax (Finset.univ : Finset (Fin 8)) (fun c => term img ker b o y x c p.2) p.1 (Finset.mem_univ _)

/-- The maximum over one flat index `r = 25 c + k` (input channel major) is the maximum of all the entries. -/
theorem flat_eq_value (img : Simg.Idx → EReal) (ker : Sker.Idx → EReal) (b : Fin 4) (o : Fin 16) (y x : Fin 124)
    (f : Fin 200 → EReal)
    (hf : ∀ (c : Fin 8) (k : Fin 25), f ⟨25 * c.val + k.val, by have := c.isLt; have := k.isLt; omega⟩
      = term img ker b o y x c k) :
    (Finset.univ : Finset (Fin 200)).fold max ⊥ f = value img ker b o y x := by
  refine foldMax_eq_of_dominated _ _ _ _ (fun r _ => ?_) (fun p _ => ?_)
  · refine ⟨(⟨r.val / 25, by have := r.isLt; omega⟩, ⟨r.val % 25, by omega⟩), Finset.mem_univ _, le_of_eq ?_⟩
    rw [← hf]
    exact congrArg f (Fin.ext (by show r.val = 25 * (r.val / 25) + r.val % 25; omega))
  · exact ⟨⟨25 * p.1.val + p.2.val, by have := p.1.isLt; have := p.2.isLt; omega⟩, Finset.mem_univ _,
      le_of_eq (hf p.1 p.2).symm⟩

end Cert.Tropical

end
-- ==== Proof.KernelBody.lean ====
/-
  What the kernel body stores at one grid point, as a value.

  The body is the same window term 25 times over, once per window offset k = 5 i + j (row offset i = k / 5, column
  offset j = k % 5, weight rows 8 k … 8 k + 7), the 25 results combined by a left-nested chain of elementwise maxima
  and stored with a unit axis in front. Here:

    * the stored vector is that chain, term by term, by unfolding the body's definitions — the only place the 25
      literal copies are looked at;
    * read at a block position (o, y, x) over the extended reals, the chain of elementwise maxima is the chain of the
      entries' maxima, each entry the maximum over the input channel that the window-term lemma gives;
    * so if the image block holds batch entry `b` of an image and the weight block holds the kernel laid out as the
      host lays it out — row 8 k + c, column o holding ker[o, c, 4 - k / 5, 4 - k % 5] — the stored value at
      (o, y, x) is the convolution's value at (b, o, y, x).

  Everything is stated over variables of the literal block types; the grid point only enters in the next module.
-/
import proofs.«132073_j61211873902638_1_alg».proof.Proof.Gen.KernelIdeal.Frame
import proofs.«132073_j61211873902638_1_alg».proof.Proof.KernelWindow
import proofs.«132073_j61211873902638_1_alg».proof.Proof.Spec
import Idealize.ShloMosaic.Lib.Pipeline.Value
import Idealize.ShloMosaic.Lib.ValueIdx

set_option maxRecDepth 16384

noncomputable section

namespace Cert.KernelIdeal.Body

open Cert.KernelIdeal Cert.KernelIdeal.Gen Cert.KernelIdeal.Window Idealize.ShloMosaic Idealize.ShloMosaic.ValueIdx
open Cert.Tropical (Simg Sker Sout chainMax)

/-! ## The body as a chain of window terms -/

section Generic
variable {F : FTy → Type} [FloatOps F]

/-- The left-nested chain of elementwise maxima of `W 0, …, W n`. -/
def chainVec (W : ℕ → FVec F S16x124x124 .f32) : ℕ → FVec F S16x124x124 .f32
  | 0 => W 0
  | n + 1 => maximumf (chainVec W n) (W (n + 1))

/-- Window term number `k`: row offset `k / 5`, column offset `k % 5`, weight rows from `8 k` (anything past the
    25 offsets the body has; never read). -/
def winTerm (v1 : FVec F S8x128x128 .f32) (v3 : FVec F S200x16 .f32) (k : ℕ) : FVec F S16x124x124 .f32 :=
  if h : k < 25 then
    winMax v1 v3 (k / 5) (k % 5) (8 * k) (slices_img (k / 5) (k % 5) (by omega) (by omega)) (slices_w (8 * k) (by omega))
  else constant S16x124x124 .f32 0xFF800000#32

/-- The vector the body stores is the chain of its 25 window terms, a unit axis put in front. -/
theorem stored_eq (P0 : Vec F S1x8x128x128 .f32) (P1 : Vec F S200x16 .f32) :
    k0_pay1 (k0_pay2 P0) (k0_pay3 P1) (k0_pay7 (k0_pay2 P0) (k0_pay3 P1) (k0_pay6 (k0_pay2 P0) (k0_pay3 P1)
        (k0_pay5 (k0_pay2 P0) (k0_pay3 P1) (k0_pay4 P0 P1))))
      = shapeCast S1x16x124x124 (chainVec (winTerm (k0_pay2 P0) (k0_pay3 P1)) 24)
          Facts₀.shapeCasts_S16x124x124_S1x16x124x124 := rfl

end Generic

/-! ## The chain read at a position, over the extended reals -/

/-- An elementwise chain read at an index is the chain of the entries. -/
theorem chainVec_apply (W : ℕ → FVec Ideal S16x124x124 .f32) (n : ℕ) (i : S16x124x124.Idx) :
    chainVec W n i = chainMax (fun k => (W k i : EReal)) n := by
  induction n with
  | zero => rfl
  | succ n ih =>
    show max (chainVec W n i : EReal) (W (n + 1) i) = max (chainMax (fun k => (W k i : EReal)) n) (W (n + 1) i)
    rw [ih]

theorem hz4 : (![0, 0, 0, 0] : Fin 4 → Nat) = fun _ => 0 := funext fun a => by fin_cases a <;> rfl

/-- The stored block at position (0, o, y, x) when the image block is batch entry `b` of `img` and the weight block
    is `ker` mirrored and laid out offset-major. -/
theorem stored_value (P0 : Vec Ideal S1x8x128x128 .f32) (P1 : Vec Ideal S200x16 .f32)
    (img : Simg.Idx → EReal) (ker : Sker.Idx → EReal) (b : Fin 4)
    (hP0 : ∀ (c : Fin 8) (r s : Fin 128), (P0 (ix4 (0 : Fin 1) c r s) : EReal) = img (ix4 b c r s))
    (hP1 : ∀ (c : Fin 8) (k : Fin 25) (o : Fin 16),
      (P1 (ix2 ⟨8 * k.val + c.val, by have := c.isLt; have := k.isLt; omega⟩ o) : EReal)
        = ker (ix4 o c ⟨4 - k.val / 5, by omega⟩ ⟨4 - k.val % 5, by omega⟩))
    (o : Fin 16) (y x : Fin 124) :
    (View.canon [⟨r0_2, k0_pay1 (k0_pay2 P0) (k0_pay3 P1) (k0_pay7 (k0_pay2 P0) (k0_pay3 P1) (k0_pay6 (k0_pay2 P0) (k0_pay3 P1)
        (k0_pay5 (k0_pay2 P0) (k0_pay3 P1) (k0_pay4 P0 P1))))⟩] : Vec Ideal S1x16x124x124 .f32) (ix4 (0 : Fin 1) o y x)
      = Cert.Tropical.value img ker b o y x := by
  rw [View.canon_unit_zero (S := S1x16x124x124) hz4, stored_eq]
  refine (shapeCast_apply _ _ _ (ix3 o y x) (by
    rw [Shape.rowMajor_val_three, Shape.rowMajor_val_four]
    show (o.val * 124 + y.val) * 124 + x.val = (((0 : ℕ) * 16 + o.val) * 124 + y.val) * 124 + x.val
    omega)).trans ?_
  rw [chainVec_apply]
  refine Cert.Tropical.chain_eq_value img ker b o y x _ (fun k => ?_)
  show (winTerm (k0_pay2 P0) (k0_pay3 P1) k.val (ix3 o y x) : EReal) = _
  unfold winTerm
  rw [dif_pos k.isLt]
  rw [winMax_apply (k0_pay2 P0) (k0_pay3 P1) (k.val / 5) (k.val % 5) (8 * k.val) _ _
    (by have := k.isLt; omega) (by omega) (by have := k.isLt; omega) o y x]
  refine congrArg (fun f : Fin 8 → EReal => (Finset.univ : Finset (Fin 8)).fold max (⊥ : EReal) f) (funext fun (c : Fin 8) => ?_)
  unfold Cert.Tropical.term
  refine congrArg₂ (fun a b : EReal => a + b) ?_ ?_
  · -- the image: the block without its unit axis, then batch entry b of the image
    unfold k0_pay2
    refine (shapeCast_apply _ _ _ (ix4 (0 : Fin 1) c (⟨y.val + k.val / 5, by have := y.isLt; have := k.isLt; omega⟩ : Fin 128)
      (⟨x.val + k.val % 5, by have := x.isLt; omega⟩ : Fin 128)) (by
        rw [Shape.rowMajor_val_four, Shape.rowMajor_val_three]
        show (((0 : ℕ) * 8 + c.val) * 128 + (y.val + k.val / 5)) * 128 + (x.val + k.val % 5)
          = (c.val * 128 + (y.val + k.val / 5)) * 128 + (x.val + k.val % 5)
        omega)).trans ?_
    exact hP0 c _ _
  · -- the weights: the block itself, row 8 k + c
    unfold k0_pay3
    rw [shapeCast_self]
    exact hP1 c k o

/-- The same at any block index `j`, against the convolution at any array index `i` with batch coordinate `b` and
    `j`'s other coordinates. -/
theorem stored_conv (P0 : Vec Ideal S1x8x128x128 .f32) (P1 : Vec Ideal S200x16 .f32)
    (img : Simg.Idx → EReal) (ker : Sker.Idx → EReal) (b : Fin 4)
    (hP0 : ∀ (c : Fin 8) (r s : Fin 128), (P0 (ix4 (0 : Fin 1) c r s) : EReal) = img (ix4 b c r s))
    (hP1 : ∀ (c : Fin 8) (k : Fin 25) (o : Fin 16),
      (P1 (ix2 ⟨8 * k.val + c.val, by have := c.isLt; have := k.isLt; omega⟩ o) : EReal)
        = ker (ix4 o c ⟨4 - k.val / 5, by omega⟩ ⟨4 - k.val % 5, by omega⟩))
    (j : S1x16x124x124.Idx) (i : Sout.Idx)
    (h0 : (i 0).val = b.val) (h1 : (i 1).val = (j 1).val) (h2 : (i 2).val = (j 2).val) (h3 : (i 3).val = (j 3).val) :
    (View.canon [⟨r0_2, k0_pay1 (k0_pay2 P0) (k0_pay3 P1) (k0_pay7 (k0_pay2 P0) (k0_pay3 P1) (k0_pay6 (k0_pay2 P0) (k0_pay3 P1)
        (k0_pay5 (k0_pay2 P0) (k0_pay3 P1) (k0_pay4 P0 P1))))⟩] : Vec Ideal S1x16x124x124 .f32) j
      = Cert.Tropical.conv img ker i := by
  obtain ⟨z, o, y, x, rfl⟩ : ∃ (z : Fin 1) (o : Fin 16) (y x : Fin 124), j = ix4 z o y x := ⟨j 0, j 1, j 2, j 3, eq_ix4 j⟩
  obtain ⟨b', o', y', x', rfl⟩ : ∃ (b' : Fin 4) (o' : Fin 16) (y' x' : Fin 124), i = ix4 b' o' y' x' := ⟨i 0, i 1, i 2, i 3, eq_ix4 i⟩
  obtain rfl : b' = b := Fin.ext h0
  obtain rfl : o' = o := Fin.ext h1
  obtain rfl : y' = y := Fin.ext h2
  obtain rfl : x' = x := Fin.ext h3
  obtain rfl : z = 0 := Subsingleton.elim _ _
  rw [Cert.Tropical.conv_apply]
  exact stored_value P0 P1 img ker b' hP0 hP1 o' y' x'

end Cert.KernelIdeal.Body

end
-- ==== Proof.KernelValue.lean ====
/-
  The kernel's result array after the run is the convolution of the two argument arrays.

  The grid has one point per batch entry. At point `t` the image window's block is batch entry `t` of the image,
  the weight window's block is the whole weight matrix, and the output window's block is batch entry `t` of the
  result. The weight matrix is made on the host before the region: the kernel array mirrored in both spatial axes,
  its axes reordered to (row, column, input channel, output channel), and flattened to 200 rows of 16; so row
  8 k + c, column o holds ker[o, c, 4 - k / 5, 4 - k % 5]. With the body's stored value from the module before, point
  `t` writes back block `t` of the convolution; the four blocks cover the result array; so the array ends holding
  the convolution, and the two arguments are unchanged.
-/
import proofs.«132073_j61211873902638_1_alg».proof.Proof.ValueBlocks
import proofs.«132073_j61211873902638_1_alg».proof.Proof.KernelBody
import Idealize.ShloMosaic.Lib.StableHlo.Run

set_option maxRecDepth 16384

noncomputable section

namespace Cert.KernelIdeal.Conv

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## Where the windows are at a grid point -/

/-- The printed index maps over the four grid points: the image and result windows sit at batch entry `t`, the
    weight window at the origin. -/
theorem idx_facts : ∀ t : Fin cfg0.N,
    win0_0.index t (0 : Fin 4) = t.val ∧ win0_0.index t (1 : Fin 4) = 0 ∧ win0_0.index t (2 : Fin 4) = 0
    ∧ win0_0.index t (3 : Fin 4) = 0
    ∧ win0_1.index t (0 : Fin 2) = 0 ∧ win0_1.index t (1 : Fin 2) = 0
    ∧ win0_2.index t (0 : Fin 4) = t.val ∧ win0_2.index t (1 : Fin 4) = 0 ∧ win0_2.index t (2 : Fin 4) = 0
    ∧ win0_2.index t (3 : Fin 4) = 0 :=
  (by decide +kernel : ∀ t : Fin grid0.N, _)

theorem hz2 : (![0, 0] : Fin 2 → Nat) = fun _ => 0 := funext fun a => by fin_cases a <;> rfl

/-! ## The two input blocks -/

/-- The image window's block at point `t` is batch entry `t` of the image. -/
theorem img_block (c : Dev nD) (t : Fin cfg0.N) (ci : Fin 8) (r s : Fin 128) :
    (iblk m c 0 t (ix4 (0 : Fin 1) ci r s) : EReal)
      = m ((c : Thread nD τ).loc main_arg0) (ix4 (⟨t.val, t.isLt⟩ : Fin 4) ci r s) := by
  obtain ⟨e0, e1, e2, e3, -⟩ := idx_facts t
  show V m c main_arg0 (((cfg0.win 0).blk t).view.emb (ix4 (0 : Fin 1) ci r s)) = _
  rw [V_main_arg0]
  refine congrArg _ (funext fun a => Fin.ext ?_)
  match a with
  | ⟨0, _⟩ => show win0_0.index t (0 : Fin 4) * 1 + 1 * 0 = t.val; omega
  | ⟨1, _⟩ => show win0_0.index t (1 : Fin 4) * 8 + 1 * ci.val = ci.val; omega
  | ⟨2, _⟩ => show win0_0.index t (2 : Fin 4) * 128 + 1 * r.val = r.val; omega
  | ⟨3, _⟩ => show win0_0.index t (3 : Fin 4) * 128 + 1 * s.val = s.val; omega

/-- The weight matrix as the region finds it: the host's mirror, reorder and flatten of the kernel argument. -/
theorem V_weights (c : Dev nD) :
    (V m c main_v2 : S200x16.Idx → EReal)
      = shapeCast S200x16
          (transpose S5x5x8x16 [2, 3, 1, 0] (Host.reverse [2, 3] (m ((c : Thread nD τ).loc main_arg1)))
            Facts₀.transposes_S16x8x5x5_S5x5x8x16_2_3_1_0)
          Facts₀.shapeCasts_S5x5x8x16_S200x16 := by
  dsimp only [Gen.V, Gen.hostOps0]; after_results; rfl

/-- Row 8 k + ci, column o of the weight matrix is the kernel at output channel o, input channel ci, and the
    mirrored offset. -/
theorem weights_apply (c : Dev nD) (ci : Fin 8) (k : Fin 25) (o : Fin 16) :
    (V m c main_v2 (ix2 (⟨8 * k.val + ci.val, by have := ci.isLt; have := k.isLt; omega⟩ : Fin 200) o) : EReal)
      = m ((c : Thread nD τ).loc main_arg1)
          (ix4 o ci (⟨4 - k.val / 5, by omega⟩ : Fin 5) (⟨4 - k.val % 5, by omega⟩ : Fin 5)) := by
  have hk := k.isLt
  have hc := ci.isLt
  have ho := o.isLt
  rw [show (V m c main_v2 : S200x16.Idx → EReal) = _ from V_weights m c]
  refine (shapeCast_apply _ _ _ (ix4 (⟨k.val / 5, by omega⟩ : Fin 5) (⟨k.val % 5, by omega⟩ : Fin 5) ci o) (by
    rw [Shape.rowMajor_val_four, Shape.rowMajor_val_two]
    show ((k.val / 5 * 5 + k.val % 5) * 8 + ci.val) * 16 + o.val = (8 * k.val + ci.val) * 16 + o.val
    omega)).trans ?_
  refine (transpose_apply _ _ _ _ (ix4 o ci (⟨k.val / 5, by omega⟩ : Fin 5) (⟨k.val % 5, by omega⟩ : Fin 5)) (fun b => match b with
    | ⟨0, _⟩ => rfl
    | ⟨1, _⟩ => rfl
    | ⟨2, _⟩ => rfl
    | ⟨3, _⟩ => rfl)).trans ?_
  unfold Host.reverse
  refine congrArg _ (funext fun a => Fin.ext ?_)
  match a with
  | ⟨0, _⟩ => rfl
  | ⟨1, _⟩ => rfl
  | ⟨2, _⟩ => show 5 - (k.val / 5 + 1) = 4 - k.val / 5; omega
  | ⟨3, _⟩ => show 5 - (k.val % 5 + 1) = 4 - k.val % 5; omega

/-- The weight window's block at any point is the whole weight matrix. -/
theorem w_block (c : Dev nD) (t : Fin cfg0.N) (ci : Fin 8) (k : Fin 25) (o : Fin 16) :
    (iblk m c 1 t (ix2 (⟨8 * k.val + ci.val, by have := ci.isLt; have := k.isLt; omega⟩ : Fin 200) o) : EReal)
      = m ((c : Thread nD τ).loc main_arg1)
          (ix4 o ci (⟨4 - k.val / 5, by omega⟩ : Fin 5) (⟨4 - k.val % 5, by omega⟩ : Fin 5)) := by
  obtain ⟨-, -, -, -, e0, e1, -⟩ := idx_facts t
  show V m c main_v2 (((cfg0.win 1).blk t).view.emb (ix2 (⟨8 * k.val + ci.val, _⟩ : Fin 200) o)) = _
  have he : ((cfg0.win 1).blk t).view.emb (ix2 (⟨8 * k.val + ci.val, by have := ci.isLt; have := k.isLt; omega⟩ : Fin 200) o)
      = ix2 (⟨8 * k.val + ci.val, by have := ci.isLt; have := k.isLt; omega⟩ : Fin 200) o := by
    funext a; apply Fin.ext
    match a with
    | ⟨0, _⟩ => show win0_1.index t (0 : Fin 2) * 200 + 1 * (8 * k.val + ci.val) = 8 * k.val + ci.val; omega
    | ⟨1, _⟩ => show win0_1.index t (1 : Fin 2) * 16 + 1 * o.val = o.val; omega
  rw [he]
  exact weights_apply m c ci k o

/-! ## What a point writes back, and the whole array -/

/-- Point `t` writes back block `t` of the convolution of the argument arrays. -/
theorem flushed_eq (c : Dev nD) (t : Fin cfg0.N) :
    (dats m 0 c).flushed 2 t = ((cfg0.win 2).blk t).view.read (Elt Ideal)
      (Cert.Tropical.conv (m ((c : Thread nD τ).loc main_arg0)) (m ((c : Thread nD τ).loc main_arg1))) := by
  rw [ValueBlocks.flushed2]
  unfold out0_2
  simp only [View.ld_unit_zero (S := S1x8x128x128) Body.hz4, View.ld_unit_zero (S := S200x16) hz2]
  obtain ⟨-, -, -, -, -, -, e0, e1, e2, e3⟩ := idx_facts t
  funext j
  have hj1 : (j 1).val < 16 := (j 1).isLt
  have hj2 : (j 2).val < 124 := (j 2).isLt
  have hj3 : (j 3).val < 124 := (j 3).isLt
  have hj0 : (j 0).val < 1 := (j 0).isLt
  exact Body.stored_conv (iblk m c 0 t) (iblk m c 1 t) _ _ (⟨t.val, t.isLt⟩ : Fin 4)
    (fun ci r s => img_block m c t ci r s) (fun ci k o => w_block m c t ci k o) j
    (((cfg0.win 2).blk t).view.emb j)
    (by show win0_2.index t (0 : Fin 4) * 1 + 1 * (j 0).val = t.val; omega)
    (by show win0_2.index t (1 : Fin 4) * 16 + 1 * (j 1).val = (j 1).val; omega)
    (by show win0_2.index t (2 : Fin 4) * 124 + 1 * (j 2).val = (j 2).val; omega)
    (by show win0_2.index t (3 : Fin 4) * 124 + 1 * (j 3).val = (j 3).val; omega)

/-- An index of the result array is in point `t`'s block iff each coordinate is in the block's range on its axis. -/
theorem mem_blk (t : Fin cfg0.N) (i : S4x16x124x124.Idx) :
    i ∈ ((cfg0.win 2).blk t).view.set ↔ ∀ a : Fin 4, win0_2.index t a * S1x16x124x124.size a ≤ (i a).val
      ∧ (i a).val < win0_2.index t a * S1x16x124x124.size a + S1x16x124x124.size a := by
  show i ∈ ((View.whole main_v3).slice (win0_2.rect t)).set ↔ _
  rw [View.set_slice_whole, Rect.mem_set_unit]
  exact Iff.rfl

/-- Every index of the result array is in the block of the point of its batch coordinate. -/
theorem cover (i : S4x16x124x124.Idx) :
    ∃ t : Fin cfg0.N, (cfg0.win 2).flush t = true ∧ i ∈ ((cfg0.win 2).blk t).view.set := by
  have h0 : (i 0).val < 4 := (i 0).isLt
  have h1 : (i 1).val < 16 := (i 1).isLt
  have h2 : (i 2).val < 124 := (i 2).isLt
  have h3 : (i 3).val < 124 := (i 3).isLt
  refine ⟨⟨(i 0).val, h0⟩, flush0_2 _, ?_⟩
  rw [mem_blk]
  obtain ⟨-, -, -, -, -, -, e0, e1, e2, e3⟩ := idx_facts ⟨(i 0).val, h0⟩
  have e0' : win0_2.index ⟨(i 0).val, h0⟩ (0 : Fin 4) = (i 0).val := e0
  intro a
  match a with
  | ⟨0, _⟩ =>
    show win0_2.index ⟨(i 0).val, h0⟩ (0 : Fin 4) * 1 ≤ (i 0).val ∧ (i 0).val < win0_2.index ⟨(i 0).val, h0⟩ (0 : Fin 4) * 1 + 1
    omega
  | ⟨1, _⟩ =>
    show win0_2.index ⟨(i 0).val, h0⟩ (1 : Fin 4) * 16 ≤ (i 1).val ∧ (i 1).val < win0_2.index ⟨(i 0).val, h0⟩ (1 : Fin 4) * 16 + 16
    omega
  | ⟨2, _⟩ =>
    show win0_2.index ⟨(i 0).val, h0⟩ (2 : Fin 4) * 124 ≤ (i 2).val ∧ (i 2).val < win0_2.index ⟨(i 0).val, h0⟩ (2 : Fin 4) * 124 + 124
    omega
  | ⟨3, _⟩ =>
    show win0_2.index ⟨(i 0).val, h0⟩ (3 : Fin 4) * 124 ≤ (i 3).val ∧ (i 3).val < win0_2.index ⟨(i 0).val, h0⟩ (3 : Fin 4) * 124 + 124
    omega

/-- The result array after the run is the convolution of the argument arrays. -/
theorem final (c : Dev nD) : (dats m 0 c).arrAt 2 cfg0.N
    = Cert.Tropical.conv (m ((c : Thread nD τ).loc main_arg0)) (m ((c : Thread nD τ).loc main_arg1)) :=
  (dats m 0 c).arrAt_eq_of_cover 2 _ (fun t _ => flushed_eq m c t) cover

/-- Every weakly fair execution terminates with the result array at the convolution of the arguments and the
    arguments unchanged. -/
theorem run : θ_run defs (onTc (τ := τ) (main (F := Ideal))) ⟨m, fun _ => 0, ρ⟩ fun r => ∀ c : Dev nD,
      r.2.mem ((c : Thread nD τ).loc main_v3)
        = Cert.Tropical.conv (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (ValueBlocks.run_blocks m ρ)

end Cert.KernelIdeal.Conv

end
-- ==== Proof.RefValue.lean ====
/-
  The reference program's result, read index by index, is the max-plus convolution of the specification.

  The reference lays the 25 shifted windows of the image side by side on a new axis (window offset k, row k / 5,
  column k % 5), flattens (input channel, offset) to one axis of 200 entries r = 25 c + k and the 124 × 124 output
  positions to one axis of 15376 entries p = 124 y + x, does the same to the kernel mirrored in both spatial axes,
  adds the two, and takes the maximum over r from -∞. So the result at (b, o, y, x) is

    max over r < 200 of  ker[o, r / 25, 4 - (r % 25) / 5, 4 - r % 5] + img[b, r / 25, y + (r % 25) / 5, x + (r % 25) % 5],

  which is the specification's maximum over (c, k) through r = 25 c + k. Every step below is arithmetic on
  coordinates: division and remainder by the literal extents.
-/
import proofs.«132073_j61211873902638_1_alg».proof.Proof.Gen.ReferenceIdeal.Read
import proofs.«132073_j61211873902638_1_alg».proof.Proof.Spec
import Idealize.ShloMosaic.PureOps.Ideal.Laws
import Idealize.ShloMosaic.PureOps.Reduce
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-- The image argument's type, as the reference states it. -/
abbrev Img : Type := (⟨S4x8x128x128, .f32⟩ : BufTy).Contents (Elt Ideal)
/-- The kernel argument's type, as the reference states it. -/
abbrev Ker : Type := (⟨S16x8x5x5, .f32⟩ : BufTy).Contents (Elt Ideal)

/-! ## The maximum over the flattened axis -/

/-- Dropping axis 2 of the [4, 16, 200, 15376] array leaves the [4, 16, 15376] one. -/
theorem reduces : S4x16x200x15376.Reduces [2] S4x16x15376 := by decide

/-- The index over (b, o, p) whose coordinate on the dropped axis is r. -/
theorem lift_eq (b : Fin 4) (o : Fin 16) (p : Fin 15376) (r : Fin 200) :
    reduces.lift (ix3 b o p) r = ix4 b o r p := by
  funext a
  match a with
  | ⟨0, _⟩ => exact Fin.ext rfl
  | ⟨1, _⟩ => exact Fin.ext rfl
  | ⟨2, _⟩ => exact Fin.ext rfl
  | ⟨3, _⟩ => exact Fin.ext rfl

/-- The reduction at (b, o, p) is the maximum, from -∞, of the 200 sums on the flattened axis. -/
theorem v61_at (x0 : Img) (x1 : Ker) (b : Fin 4) (o : Fin 16) (p : Fin 15376) :
    val_main_v61 (F := Ideal) x0 x1 (ix3 b o p)
      = (Finset.univ : Finset (Fin 200)).fold max ⊥ (fun r => val_main_v60 (F := Ideal) x0 x1 (ix4 b o r p)) := by
  unfold val_main_v61
  refine (Host.reduce_eq_fold_single _ _ _ reducesTo_S4x16x200x15376_S4x16x15376_d2 reduces h_S_ (ix3 b o p)).trans ?_
  have hinit : val_main_cst (F := Ideal) (Shape.Idx.first h_S_) = (⊥ : EReal) := by
    show Ideal.ofBits .f32 0xFF800000#32 = ⊥
    simp [Ideal.ofBits, Ideal.ieee]
  rw [hinit]
  show (Finset.univ : Finset (Fin 200)).fold max (⊥ : EReal) _ = _
  exact congrArg (Finset.fold max (⊥ : EReal) · Finset.univ) (funext fun r =>
    congrArg (val_main_v60 (F := Ideal) x0 x1) (lift_eq b o p r))

/-! ## The kernel entry -/

/-- Row r = 25 c + k of the mirrored kernel flattened to [16, 200] is the kernel at (c, 4 - k / 5, 4 - k % 5). -/
theorem ker_at (x1 : Ker) (b' : Fin 4) (o : Fin 16) (c : Fin 8) (k : Fin 25) (p : Fin 15376) :
    val_main_v58 (F := Ideal) x1
        (ix4 b' o ⟨25 * c.val + k.val, by have := c.isLt; have := k.isLt; omega⟩ p)
      = x1 (ix4 o c ⟨4 - k.val / 5, by omega⟩ ⟨4 - k.val % 5, by omega⟩) := by
  have hc := c.isLt
  have hk := k.isLt
  have ho := o.isLt
  rw [val_main_v58_apply, val_main_v56_apply, val_main_v55_apply]
  unfold val_main_v0 Host.reverse
  refine congrArg x1 (funext fun a => Fin.ext ?_)
  match a with
  | ⟨0, _⟩ =>
    show (o.val * 200 + (25 * c.val + k.val)) / 200 = o.val
    omega
  | ⟨1, _⟩ =>
    show (o.val * 200 + (25 * c.val + k.val)) / 25 % 8 = c.val
    omega
  | ⟨2, _⟩ =>
    show 5 - ((o.val * 200 + (25 * c.val + k.val)) / 5 % 5 + 1) = 4 - k.val / 5
    omega
  | ⟨3, _⟩ =>
    show 5 - ((o.val * 200 + (25 * c.val + k.val)) % 5 + 1) = 4 - k.val % 5
    omega

/-! ## The image entry -/

/-- The window of the image at offset (k / 5, k % 5) lies inside it. -/
theorem slices (k : ℕ) (hk : k < 25) : S4x8x128x128.Slices ![0, 0, k / 5, k % 5] S4x8x124x124 :=
  ⟨rfl, fun a => match a with
    | ⟨0, _⟩ => by show 0 + 4 ≤ 4; omega
    | ⟨1, _⟩ => by show 0 + 8 ≤ 8; omega
    | ⟨2, _⟩ => by show k / 5 + 124 ≤ 128; omega
    | ⟨3, _⟩ => by show k % 5 + 124 ≤ 128; omega⟩

/-- The shifted window at offset k with a unit axis put in, for every k below 25 at once. -/
def slab (x0 : Img) (k : ℕ) (hk : k < 25) : (⟨S4x8x1x124x124, .f32⟩ : BufTy).Contents (Elt Ideal) :=
  broadcastInDim S4x8x1x124x124 ![0, 1, 3, 4] bcast_S4x8x124x124_S4x8x1x124x124_0_1_3_4
    (extractStridedSlice S4x8x124x124 ![0, 0, k / 5, k % 5] x0 (slices k hk))

/-- The window at offset k reads the image shifted by (k / 5, k % 5). -/
theorem slab_at (x0 : Img) (k : ℕ) (hk : k < 25) (b : Fin 4) (c : Fin 8) (z : Fin 1) (y x : Fin 124) :
    slab x0 k hk (ix5 b c z y x)
      = x0 (ix4 b c ⟨y.val + k / 5, by have := y.isLt; omega⟩ ⟨x.val + k % 5, by have := x.isLt; omega⟩) := by
  unfold slab
  refine (broadcastInDim_apply _ bcast_S4x8x124x124_S4x8x1x124x124_0_1_3_4 _ (ix5 b c z y x) (ix4 b c y x)
    (fun a => match a with
      | ⟨0, _⟩ => by show b.val = if (4 : Nat) = 1 then 0 else b.val; rw [if_neg (by decide)]
      | ⟨1, _⟩ => by show c.val = if (8 : Nat) = 1 then 0 else c.val; rw [if_neg (by decide)]
      | ⟨2, _⟩ => by show y.val = if (124 : Nat) = 1 then 0 else y.val; rw [if_neg (by decide)]
      | ⟨3, _⟩ => by show x.val = if (124 : Nat) = 1 then 0 else x.val; rw [if_neg (by decide)])).trans ?_
  exact extractStridedSlice_apply _ x0 (slices k hk) (ix4 b c y x) _ (fun a => match a with
    | ⟨0, _⟩ => by show b.val = 0 + b.val; omega
    | ⟨1, _⟩ => by show c.val = 0 + c.val; omega
    | ⟨2, _⟩ => by show y.val + k / 5 = k / 5 + y.val; omega
    | ⟨3, _⟩ => by show x.val + k % 5 = k % 5 + x.val; omega)

/-- The first sixteen windows side by side are the stack of the windows at offsets 0 … 15. -/
theorem v51_eq (x0 : Img) :
    val_main_v51 (F := Ideal) x0
      = concatenate S4x8x16x124x124 2
          (List.ofFn fun n : Fin 16 => (⟨S4x8x1x124x124, slab x0 n.val (by have := n.isLt; omega)⟩ :
            (s : Shape) × (s.Idx → Elt Ideal .f32)))
          concatenates_S4x8x1x124x124_S4x8x1x124x124_S4x8x1x124x124_S4x8x1x124x124_S4x8x1x124x124_S4x8x1x124x124_S4x8x1x124x124_S4x8x1x124x124_S4x8x1x124x124_S4x8x1x124x124_S4x8x1x124x124_S4x8x1x124x124_S4x8x1x124x124_S4x8x1x124x124_S4x8x1x124x124_S4x8x1x124x124_S4x8x16x124x124_d2 :=
  rfl

/-- The last nine windows side by side are the stack of the windows at offsets 16 … 24. -/
theorem v52_eq (x0 : Img) :
    val_main_v52 (F := Ideal) x0
      = concatenate S4x8x9x124x124 2
          (List.ofFn fun n : Fin 9 => (⟨S4x8x1x124x124, slab x0 (16 + n.val) (by have := n.isLt; omega)⟩ :
            (s : Shape) × (s.Idx → Elt Ideal .f32)))
          concatenates_S4x8x1x124x124_S4x8x1x124x124_S4x8x1x124x124_S4x8x1x124x124_S4x8x1x124x124_S4x8x1x124x124_S4x8x1x124x124_S4x8x1x124x124_S4x8x1x124x124_S4x8x9x124x124_d2 :=
  rfl

/-- Window n of the first stack, for n below 16. -/
theorem v51_at (x0 : Img) (b : Fin 4) (c : Fin 8) (n : Fin 16) (y x : Fin 124) :
    val_main_v51 (F := Ideal) x0 (ix5 b c n y x)
      = x0 (ix4 b c ⟨y.val + n.val / 5, by have := y.isLt; have := n.isLt; omega⟩
          ⟨x.val + n.val % 5, by have := x.isLt; omega⟩) := by
  rw [v51_eq]
  refine (concatenate_ofFn_unit_apply (t := S4x8x16x124x124) (s₁ := S4x8x1x124x124) (2 : Fin 5) (fun n : Fin 16 => slab x0 n.val (by have := n.isLt; omega)) _ rfl rfl
    (ix5 b c n y x) n rfl (ix5 b c 0 y x) (fun a ha => ?_)).trans (slab_at x0 n.val _ b c 0 y x)
  match a with
  | ⟨0, _⟩ => rfl
  | ⟨1, _⟩ => rfl
  | ⟨2, _⟩ => exact absurd rfl ha
  | ⟨3, _⟩ => rfl
  | ⟨4, _⟩ => rfl

/-- Window 16 + n of the second stack, for n below 9. -/
theorem v52_at (x0 : Img) (b : Fin 4) (c : Fin 8) (n : Fin 9) (y x : Fin 124) :
    val_main_v52 (F := Ideal) x0 (ix5 b c n y x)
      = x0 (ix4 b c ⟨y.val + (16 + n.val) / 5, by have := y.isLt; have := n.isLt; omega⟩
          ⟨x.val + (16 + n.val) % 5, by have := x.isLt; omega⟩) := by
  rw [v52_eq]
  refine (concatenate_ofFn_unit_apply (t := S4x8x9x124x124) (s₁ := S4x8x1x124x124) (2 : Fin 5) (fun n : Fin 9 => slab x0 (16 + n.val) (by have := n.isLt; omega)) _ rfl rfl
    (ix5 b c n y x) n rfl (ix5 b c 0 y x) (fun a ha => ?_)).trans (slab_at x0 (16 + n.val) _ b c 0 y x)
  match a with
  | ⟨0, _⟩ => rfl
  | ⟨1, _⟩ => rfl
  | ⟨2, _⟩ => exact absurd rfl ha
  | ⟨3, _⟩ => rfl
  | ⟨4, _⟩ => rfl

/-- All 25 windows side by side: window k reads the image shifted by (k / 5, k % 5). -/
theorem v53_at (x0 : Img) (b : Fin 4) (c : Fin 8) (k : Fin 25) (y x : Fin 124) :
    val_main_v53 (F := Ideal) x0 (ix5 b c k y x)
      = x0 (ix4 b c ⟨y.val + k.val / 5, by have := y.isLt; have := k.isLt; omega⟩
          ⟨x.val + k.val % 5, by have := x.isLt; omega⟩) := by
  have hk := k.isLt
  unfold val_main_v53
  by_cases h16 : k.val < 16
  · refine (concatenate_pair_apply_left (t := S4x8x25x124x124) (2 : Fin 5) (val_main_v51 (F := Ideal) x0) (val_main_v52 (F := Ideal) x0)
      concatenates_S4x8x16x124x124_S4x8x9x124x124_S4x8x25x124x124_d2 (ix5 b c k y x) rfl
      (ix5 b c (⟨k.val, h16⟩ : Fin 16) y x) (fun a => ?_)).trans (v51_at x0 b c ⟨k.val, h16⟩ y x)
    match a with
    | ⟨0, _⟩ => rfl
    | ⟨1, _⟩ => rfl
    | ⟨2, _⟩ => rfl
    | ⟨3, _⟩ => rfl
    | ⟨4, _⟩ => rfl
  · refine (concatenate_pair_apply_right (t := S4x8x25x124x124) (2 : Fin 5) (val_main_v51 (F := Ideal) x0) (val_main_v52 (F := Ideal) x0)
      concatenates_S4x8x16x124x124_S4x8x9x124x124_S4x8x25x124x124_d2 (ix5 b c k y x) rfl rfl
      (ix5 b c (⟨k.val - 16, by omega⟩ : Fin 9) y x) (fun a ha => ?_) ?_).trans
      ((v52_at x0 b c ⟨k.val - 16, by omega⟩ y x).trans (congrArg x0 (funext fun a => Fin.ext ?_)))
    · match a with
      | ⟨0, _⟩ => rfl
      | ⟨1, _⟩ => rfl
      | ⟨2, _⟩ => exact absurd rfl ha
      | ⟨3, _⟩ => rfl
      | ⟨4, _⟩ => rfl
    · show k.val - 16 + 16 = k.val
      omega
    · match a with
      | ⟨0, _⟩ => rfl
      | ⟨1, _⟩ => rfl
      | ⟨2, _⟩ =>
        show y.val + (16 + (k.val - 16)) / 5 = y.val + k.val / 5
        omega
      | ⟨3, _⟩ =>
        show x.val + (16 + (k.val - 16)) % 5 = x.val + k.val % 5
        omega

/-- Row r = 25 c + k, column p = 124 y + x of the windows flattened to [4, 200, 15376] is the image at
    (c, y + k / 5, x + k % 5). -/
theorem img_at (x0 : Img) (b : Fin 4) (o' : Fin 16) (c : Fin 8) (k : Fin 25) (y x : Fin 124) :
    val_main_v59 (F := Ideal) x0
        (ix4 b o' ⟨25 * c.val + k.val, by have := c.isLt; have := k.isLt; omega⟩
          ⟨124 * y.val + x.val, by have := y.isLt; have := x.isLt; omega⟩)
      = x0 (ix4 b c ⟨y.val + k.val / 5, by have := y.isLt; have := k.isLt; omega⟩
          ⟨x.val + k.val % 5, by have := x.isLt; omega⟩) := by
  have hb := b.isLt
  have hc := c.isLt
  have hk := k.isLt
  have hy := y.isLt
  have hx := x.isLt
  rw [val_main_v59_apply, val_main_v57_apply, val_main_v54_apply]
  refine (congrArg (val_main_v53 (F := Ideal) x0) (funext fun a => Fin.ext ?_)).trans (v53_at x0 b c k y x)
  match a with
  | ⟨0, _⟩ =>
    show ((b.val * 200 + (25 * c.val + k.val)) * 15376 + (124 * y.val + x.val)) / 3075200 = b.val
    omega
  | ⟨1, _⟩ =>
    show ((b.val * 200 + (25 * c.val + k.val)) * 15376 + (124 * y.val + x.val)) / 384400 % 8 = c.val
    omega
  | ⟨2, _⟩ =>
    show ((b.val * 200 + (25 * c.val + k.val)) * 15376 + (124 * y.val + x.val)) / 15376 % 25 = k.val
    omega
  | ⟨3, _⟩ =>
    show ((b.val * 200 + (25 * c.val + k.val)) * 15376 + (124 * y.val + x.val)) / 124 % 124 = y.val
    omega
  | ⟨4, _⟩ =>
    show ((b.val * 200 + (25 * c.val + k.val)) * 15376 + (124 * y.val + x.val)) % 124 = x.val
    omega

/-! ## The result -/

/-- The reference's result at (b, o, y, x) is the specification's maximum. -/
theorem value_at (x0 : Img) (x1 : Ker) (b : Fin 4) (o : Fin 16) (y x : Fin 124) :
    val_main_v62 (F := Ideal) x0 x1 (ix4 b o y x) = Cert.Tropical.value x0 x1 b o y x := by
  have hb := b.isLt
  have ho := o.isLt
  have hy := y.isLt
  have hx := x.isLt
  rw [val_main_v62_apply]
  refine (congrArg (val_main_v61 (F := Ideal) x0 x1) (funext fun a => Fin.ext ?_)).trans
    ((v61_at x0 x1 b o ⟨124 * y.val + x.val, by omega⟩).trans ?_)
  · match a with
    | ⟨0, _⟩ =>
      show (((b.val * 16 + o.val) * 124 + y.val) * 124 + x.val) / 246016 = b.val
      omega
    | ⟨1, _⟩ =>
      show (((b.val * 16 + o.val) * 124 + y.val) * 124 + x.val) / 15376 % 16 = o.val
      omega
    | ⟨2, _⟩ =>
      show (((b.val * 16 + o.val) * 124 + y.val) * 124 + x.val) % 15376 = 124 * y.val + x.val
      omega
  · refine Cert.Tropical.flat_eq_value x0 x1 b o y x _ (fun c k => ?_)
    show val_main_v58 (F := Ideal) x1 _ + val_main_v59 (F := Ideal) x0 _ = _
    rw [ker_at x1 b o c k, img_at x0 b o c k y x, add_comm]
    rfl

/-- The reference computes the max-plus convolution. -/
theorem ref_eq_conv (x0 : (⟨S4x8x128x128, .f32⟩ : BufTy).Contents (Elt Ideal))
    (x1 : (⟨S16x8x5x5, .f32⟩ : BufTy).Contents (Elt Ideal)) :
    Cert.ReferenceIdeal.Read.val_main_v62 (F := Ideal) x0 x1 = Cert.Tropical.conv x0 x1 := by
  funext j
  obtain ⟨b, o, y, x, rfl⟩ : ∃ (b : Fin 4) (o : Fin 16) (y x : Fin 124), j = ix4 b o y x :=
    ⟨j 0, j 1, j 2, j 3, eq_ix4 j⟩
  rw [Cert.Tropical.conv_apply]
  exact value_at x0 x1 b o y x

end Cert.ReferenceIdeal.RefValue

end
-- ==== Proof.lean ====
/-
  The certificate of a max-plus ("tropical") valid convolution kernel against its jnp reference.

  Both programs compute, for a 4 × 8 × 128 × 128 image and a 16 × 8 × 5 × 5 kernel,

      out[b, o, y, x] = max over c < 8, i < 5, j < 5 of  img[b, c, y + i, x + j] + ker[o, c, 4 - i, 4 - j]

  (Proof/Spec.lean: `Cert.Tropical.conv`). The kernel runs one grid point per batch entry; on the host it mirrors the
  kernel array, reorders it to (row, column, input channel, output channel) and flattens it to 200 × 16; in the body
  it takes, for each of the 25 window offsets, the maximum over the 8 input channels of shifted image plus weight
  row, and chains the 25 results by binary maxima. The reference stacks the 25 shifted images, flattens input channel
  and offset into one axis of 200, adds the mirrored kernel flattened the same way, and takes one maximum over that
  axis. The two differ only in how the 200 entries of the maximum are grouped and ordered, and in the order of the
  two summands: max is commutative, associative and idempotent and + is commutative on the extended reals, so they
  agree for ALL inputs — the precondition (finite inputs) is not used.

  Proof/KernelWindow.lean reads one window term at a position; Proof/KernelBody.lean shows the body's stored block
  is the convolution's block; Proof/KernelValue.lean carries that through the grid to the whole result array;
  Proof/RefValue.lean reads the reference's run, stage by stage, to the same function. Here the five claims are
  assembled: the three frames (the two kernels' are generated whole; the reference's is its run with the result
  dropped), `preserves` (the ideal pass rewrote nothing: the conjunct is `True`), and `algebraic`.
-/
import proofs.«132073_j61211873902638_1_alg».proof.Defs
import proofs.«132073_j61211873902638_1_alg».proof.Proof.Gen.Kernel
import proofs.«132073_j61211873902638_1_alg».proof.Proof.Gen.Kernel.Skeleton
import proofs.«132073_j61211873902638_1_alg».proof.Proof.Gen.Kernel.Launch
import proofs.«132073_j61211873902638_1_alg».proof.Proof.Gen.Kernel.Points
import proofs.«132073_j61211873902638_1_alg».proof.Proof.Gen.Kernel.Frame
import proofs.«132073_j61211873902638_1_alg».proof.Proof.Gen.KernelIdeal
import proofs.«132073_j61211873902638_1_alg».proof.Proof.Gen.KernelIdeal.Skeleton
import proofs.«132073_j61211873902638_1_alg».proof.Proof.Gen.KernelIdeal.Launch
import proofs.«132073_j61211873902638_1_alg».proof.Proof.Gen.KernelIdeal.Points
import proofs.«132073_j61211873902638_1_alg».proof.Proof.Gen.KernelIdeal.Frame
import proofs.«132073_j61211873902638_1_alg».proof.Proof.Gen.ReferenceIdeal
import proofs.«132073_j61211873902638_1_alg».proof.Proof.Gen.ReferenceIdeal.Run
import proofs.«132073_j61211873902638_1_alg».proof.Proof.Gen.ReferenceIdeal.Read
import proofs.«132073_j61211873902638_1_alg».proof.Proof.Gen.Pre_finite_inputs
import proofs.«132073_j61211873902638_1_alg».proof.Proof.KernelValue
import proofs.«132073_j61211873902638_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed terminates without a fault and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a host program: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- Over the extended reals, from memories that agree on the two arguments, the kernel's result array and the
    reference's both end at the convolution of the arguments. -/
theorem algebraic : Cert.algebraic_KernelIdeal_ReferenceIdeal := by
  intro m ρ m' ρ' _ hagree
  refine ⟨fun c => Cert.Tropical.conv (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Conv.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v62_eq, Cert.ReferenceIdeal.RefValue.ref_eq_conv,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
